-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46_1)) (v1 : (c : Dev Cert.KernelIdeal.nD) → Buf (Elt Ideal) ((c.tc : Thread Cert.KernelIdeal.nD Cert.KernelIdeal.τ).loc Cert.KernelIdeal.main_v46_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_1) = v0 c
          ∧ r.2.mem ((c.tc : Thread Cert.KernelIdeal.nD Cert.KernelIdeal.τ).loc Cert.KernelIdeal.main_v46_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x640000 32) (main_arg2 : FVec F S128x128 .f32) (main_arg3 : FVec F S128 .f32) (main_arg4 : FVec F S1x128 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg5 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S5000x128 : Shape := ⟨2, ![5000, 128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x1 : Shape := ⟨2, ![1, 1]⟩
abbrev S100000x1 : Shape := ⟨2, ![100000, 1]⟩
abbrev S5000x1 : Shape := ⟨2, ![5000, 1]⟩
abbrev S128x1 : Shape := ⟨2, ![128, 1]⟩

abbrev nBuf : Space → Nat
  | .hbm => 67
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S100000x128, .f32⟩
  | .hbm, ⟨7, _⟩ => ⟨S100000, .i32⟩
  | .hbm, ⟨8, _⟩ => ⟨S1x640000, .i32⟩
  | .hbm, ⟨9, _⟩ => ⟨S640000, .i32⟩
  | .hbm, ⟨10, _⟩ => ⟨S740000, .i32⟩
  | .hbm, ⟨11, _⟩ => ⟨S1x640000, .i32⟩
  | .hbm, ⟨12, _⟩ => ⟨S640000, .i32⟩
  | .hbm, ⟨13, _⟩ => ⟨S740000, .i32⟩
  | .hbm, ⟨14, _⟩ => ⟨S_, .f32⟩
  | .hbm, ⟨15, _⟩ => ⟨S740000, .f32⟩
  | .hbm, ⟨16, _⟩ => ⟨S_, .f32⟩
  | .hbm, ⟨17, _⟩ => ⟨S100000, .f32⟩
  | .hbm, ⟨18, _⟩ => ⟨S740000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S740000, .i32⟩
  | .hbm, ⟨30, _⟩ => ⟨S740000, .i1⟩
  | .hbm, ⟨31, _⟩ => ⟨S_, .i32⟩
  | .hbm, ⟨32, _⟩ => ⟨S740000, .i32⟩
  | .hbm, ⟨33, _⟩ => ⟨S740000, .i32⟩
  | .hbm, ⟨34, _⟩ => ⟨S740000, .i32⟩
  | .hbm, ⟨35, _⟩ => ⟨S740000x1, .i32⟩
  | .hbm, ⟨36, _⟩ => ⟨S740000, .f32⟩
  | .hbm, ⟨37, _⟩ => ⟨S_, .i32⟩
  | .hbm, ⟨38, _⟩ => ⟨S740000, .i32⟩
  | .hbm, ⟨39, _⟩ => ⟨S740000, .i1⟩
  | .hbm, ⟨40, _⟩ => ⟨S_, .i32⟩
  | .hbm, ⟨41, _⟩ => ⟨S740000, .i32⟩
  | .hbm, ⟨42, _⟩ => ⟨S740000, .i32⟩
  | .hbm, ⟨43, _⟩ => ⟨S740000, .i32⟩
  | .hbm, ⟨44, _⟩ => ⟨S740000x1, .i32⟩
  | .hbm, ⟨45, _⟩ => ⟨S740000, .f32⟩
  | .hbm, ⟨46, _⟩ => ⟨S740000, .f32⟩
  | .hbm, ⟨47, _⟩ => ⟨S_, .i32⟩
  | .hbm, ⟨48, _⟩ => ⟨S740000, .i32⟩
  | .hbm, ⟨49, _⟩ => ⟨S740000, .i1⟩
  | .hbm, ⟨50, _⟩ => ⟨S_, .i32⟩
  | .hbm, ⟨51, _⟩ => ⟨S740000, .i32⟩
  | .hbm, ⟨52, _⟩ => ⟨S740000, .i32⟩
  | .hbm, ⟨53, _⟩ => ⟨S740000, .i32⟩
  | .hbm, ⟨54, _⟩ => ⟨S740000x1, .i32⟩
  | .hbm, ⟨55, _⟩ => ⟨S740000x128, .f32⟩
  | .hbm, ⟨56, _⟩ => ⟨S740000x1, .f32⟩
  | .hbm, ⟨57, _⟩ => ⟨S740000x128, .f32⟩
  | .hbm, ⟨58, _⟩ => ⟨S740000x128, .f32⟩
  | .hbm, ⟨59, _⟩ => ⟨S_, .f32⟩
  | .hbm, ⟨60, _⟩ => ⟨S100000x128, .f32⟩
  | .hbm, ⟨61, _⟩ => ⟨S740000x1, .i32⟩
  | .hbm, ⟨62, _⟩ => ⟨S100000x128, .f32⟩
  | .hbm, ⟨63, _⟩ => ⟨S1x128, .f32⟩
  | .hbm, ⟨64, _⟩ => ⟨S1x1, .f32⟩
  | .hbm, ⟨65, _⟩ => ⟨S100000x128, .f32⟩
  | .hbm, ⟨66, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x1, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46_0 : Ref sig .tc := ⟨.hbm, 65, rfl⟩
abbrev main_v46_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  shapeCasts_S128_S1x128 : S128.ShapeCasts S1x128
  shapeCasts_S1_S1x1 : S1.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  transposes_S1x128_p1_0_S128x1 : S1x128.Transposes [1, 0] S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S5000x128_S128x128_S5000x128_1_0_0_1_n_n_wf : DotDims.WF S5000x128 S128x128 S5000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v46_1) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S128x1 : Shape := ⟨2, ![128, 1]⟩
abbrev S100000x1 : Shape := ⟨2, ![100000, 1]⟩
abbrev S1x1 : Shape := ⟨2, ![1, 1]⟩

abbrev nBuf : Space → Nat
  | .hbm => 83
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S100000, .i32⟩
  | .hbm, ⟨7, _⟩ => ⟨S1x640000, .i32⟩
  | .hbm, ⟨8, _⟩ => ⟨S640000, .i32⟩
  | .hbm, ⟨9, _⟩ => ⟨S740000, .i32⟩
  | .hbm, ⟨10, _⟩ => ⟨S1x640000, .i32⟩
  | .hbm, ⟨11, _⟩ => ⟨S640000, .i32⟩
  | .hbm, ⟨12, _⟩ => ⟨S740000, .i32⟩
  | .hbm, ⟨13, _⟩ => ⟨S_, .f32⟩
  | .hbm, ⟨14, _⟩ => ⟨S740000, .f32⟩
  | .hbm, ⟨15, _⟩ => ⟨S_, .f32⟩
  | .hbm, ⟨16, _⟩ => ⟨S100000, .f32⟩
  | .hbm, ⟨17, _⟩ => ⟨S740000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S740000, .i32⟩
  | .hbm, ⟨29, _⟩ => ⟨S740000, .i1⟩
  | .hbm, ⟨30, _⟩ => ⟨S_, .i32⟩
  | .hbm, ⟨31, _⟩ => ⟨S740000, .i32⟩
  | .hbm, ⟨32, _⟩ => ⟨S740000, .i32⟩
  | .hbm, ⟨33, _⟩ => ⟨S740000, .i32⟩
  | .hbm, ⟨34, _⟩ => ⟨S740000x1, .i32⟩
  | .hbm, ⟨35, _⟩ => ⟨S740000, .f32⟩
  | .hbm, ⟨36, _⟩ => ⟨S_, .i32⟩
  | .hbm, ⟨37, _⟩ => ⟨S740000, .i32⟩
  | .hbm, ⟨38, _⟩ => ⟨S740000, .i1⟩
  | .hbm, ⟨39, _⟩ => ⟨S_, .i32⟩
  | .hbm, ⟨40, _⟩ => ⟨S740000, .i32⟩
  | .hbm, ⟨41, _⟩ => ⟨S740000, .i32⟩
  | .hbm, ⟨42, _⟩ => ⟨S740000, .i32⟩
  | .hbm, ⟨43, _⟩ => ⟨S740000x1, .i32⟩
  | .hbm, ⟨44, _⟩ => ⟨S740000, .f32⟩
  | .hbm, ⟨45, _⟩ => ⟨S740000, .f32⟩
  | .hbm, ⟨46, _⟩ => ⟨S128x128, .f32⟩
  | .hbm, ⟨47, _⟩ => ⟨S100000x128, .f32⟩
  | .hbm, ⟨48, _⟩ => ⟨S_, .i32⟩
  | .hbm, ⟨49, _⟩ => ⟨S740000, .i32⟩
  | .hbm, ⟨50, _⟩ => ⟨S740000, .i1⟩
  | .hbm, ⟨51, _⟩ => ⟨S_, .i32⟩
  | .hbm, ⟨52, _⟩ => ⟨S740000, .i32⟩
  | .hbm, ⟨53, _⟩ => ⟨S740000, .i32⟩
  | .hbm, ⟨54, _⟩ => ⟨S740000, .i32⟩
  | .hbm, ⟨55, _⟩ => ⟨S740000x1, .i32⟩
  | .hbm, ⟨56, _⟩ => ⟨S740000x128, .f32⟩
  | .hbm, ⟨57, _⟩ => ⟨S740000x1, .f32⟩
  | .hbm, ⟨58, _⟩ => ⟨S740000x128, .f32⟩
  | .hbm, ⟨59, _⟩ => ⟨S740000x128, .f32⟩
  | .hbm, ⟨60, _⟩ => ⟨S_, .f32⟩
  | .hbm, ⟨61, _⟩ => ⟨S100000x128, .f32⟩
  | .hbm, ⟨62, _⟩ => ⟨S740000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S128x1, .f32⟩
  | .hbm, ⟨71, _⟩ => ⟨S100000x1, .f32⟩
  | .hbm, ⟨72, _⟩ => ⟨S1x1, .f32⟩
  | .hbm, ⟨73, _⟩ => ⟨S100000x1, .f32⟩
  | .hbm, ⟨74, _⟩ => ⟨S100000x1, .f32⟩
  | .hbm, ⟨75, _⟩ => ⟨S100000x1, .f32⟩
  | .hbm, ⟨76, _⟩ => ⟨S100000x1, .f32⟩
  | .hbm, ⟨77, _⟩ => ⟨S_, .f32⟩
  | .hbm, ⟨78, _⟩ => ⟨S100000x1, .f32⟩
  | .hbm, ⟨79, _⟩ => ⟨S100000x1, .f32⟩
  | .hbm, ⟨80, _⟩ => ⟨S_, .f32⟩
  | .hbm, ⟨81, _⟩ => ⟨S100000x1, .f32⟩
  | .hbm, ⟨82, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  transposes_S128x128_S128x128_1_0 : S128x128.Transposes [1, 0] S128x128
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x1_S100000x1_1_0_0_1_n_n_wf : DotDims.WF S100000x128 S128x1 S100000x1 [1] [0] [0] [1] [] []

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Spec.lean ====
/-
  The graph-convolution head as three whole-array functions over the extended reals, index by index.

  * `proj x w`: the projected features x·wᵀ, entry (r, c) the sum over k of x[r,k]·w[c,k];
  * `hidden a b`: the bias added along the feature axis and the rectifier, entry (r, c) = max (a[r,c] + b[c]) 0;
  * `score h wl bl`: the logistic of the row's inner product with the one output row of weights, plus the bias,
    entry (r, 0) = 1 / (1 + e^(-(Σ_k h[r,k]·wl[0,k] + bl[0]))).

  Between `proj` and `hidden` both programs aggregate messages over the edge list with the same host
  operations; that function of the projected features and the edge list is named where the programs are in
  scope.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx
open scoped BigOperators

/-- Nodes × features. -/
abbrev NodeFeat : Shape := ⟨2, ![100000, 128]⟩
/-- One score per node. -/
abbrev NodeOne : Shape := ⟨2, ![100000, 1]⟩

/-- The projected features x·wᵀ. -/
def proj (x : NodeFeat.Idx → EReal) (w : (⟨2, ![128, 128]⟩ : Shape).Idx → EReal) : NodeFeat.Idx → EReal :=
  fun i => ∑ k : Fin 128, x (ix2 (i 0) k) * w (ix2 (i 1) k)

/-- Bias along the feature axis, then the rectifier. -/
def hidden (a : NodeFeat.Idx → EReal) (b : (⟨1, ![128]⟩ : Shape).Idx → EReal) : NodeFeat.Idx → EReal :=
  fun i => max (a i + b (ix1 (i 1))) 0

/-- The logistic of each row's inner product with the weight row, plus the bias. -/
def score (h : NodeFeat.Idx → EReal) (wl : (⟨2, ![1, 128]⟩ : Shape).Idx → EReal) (bl : (⟨1, ![1]⟩ : Shape).Idx → EReal) :
    NodeOne.Idx → EReal :=
  fun i => Ideal.logistic ((∑ k : Fin 128, h (ix2 (i 0) k) * wl (ix2 0 k)) + bl (ix1 0))

end Cert.Gcn

end
-- ==== Proof.Reg0Value.lean ====
/-
  The first region's output array: the projected features.

  Grid point t loads rows 5000t … 5000t+4999 of x and the whole of w, and writes back, into the same rows of
  the output, their product with wᵀ: entry (p, q) of the block is Σ_k x[5000t+p, k]·w[q, k] (the change of float
  format is the identity over the extended reals, and the accumulator starts at zero). The twenty row blocks tile
  the array, so after the region it holds `Cert.Gcn.proj` of the two arrays as the region found them.
-/
import proofs.«146198_j63032940036157_1_alg».proof.Proof.Gen.KernelIdeal.Frame
import proofs.«146198_j63032940036157_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Projection

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The contraction's index maps, axis by axis -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The body's payload at an index -/

/-- Entry (p, q) of what the body stores: row p of the loaded rows against row q of the loaded weights. -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 q k) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rw [transpose_apply [1, 0] _ transposes_S128x128_p1_0_S128x128 (ix2 k q) (ix2 q k) (fun b => match b with
    | ⟨0, _⟩ => rfl
    | ⟨1, _⟩ => rfl)]
  rfl

/-- The same at any index of the block, against two arrays the loaded values are rows of. -/
theorem pay_eq_proj (x0 : Vec Ideal S5000x128 .f32) (x1 : Vec Ideal S128x128 .f32)
    (A : Cert.Gcn.NodeFeat.Idx → EReal) (B : (⟨2, ![128, 128]⟩ : Shape).Idx → EReal)
    (j : S5000x128.Idx) (i : Cert.Gcn.NodeFeat.Idx)
    (h0 : ∀ k : Fin 128, x0 (ix2 (j 0) k) = A (ix2 (i 0) k)) (h1 : ∀ k : Fin 128, x1 (ix2 (j 1) k) = B (ix2 (i 1) k)) :
    k0_pay1 (F := Ideal) x0 x1 j = Cert.Gcn.proj A B i := by
  obtain ⟨p, q, rfl⟩ : ∃ (p : Fin 5000) (q : Fin 128), j = ix2 p q := ⟨j 0, j 1, eq_ix2 j⟩
  rw [pay_apply]
  unfold Cert.Gcn.proj
  exact Finset.sum_congr rfl fun k _ => congrArg₂ (· * ·) (h0 k) (h1 k)

/-! ## Blocks and the array -/

theorem hz : (![0, 0] : Fin 2 → Nat) = fun _ => 0 := funext fun a => by fin_cases a <;> rfl

/-- The printed index maps over the grid: the row blocks of x and of the output move with the point, the
    weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the projection of the two arrays as the region finds them. -/
theorem flushed_eq (c : Dev nD) (t : Fin cfg0.N) :
    (dat0 V c).flushed 2 t = ((cfg0.win 2).blk t).view.read (Elt Ideal) (Cert.Gcn.proj (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx_facts t
  funext j
  show k0_pay1 (F := Ideal) (iblk0 V c 0 t) (iblk0 V c 1 t) j = Cert.Gcn.proj (V c main_arg0) (V c main_arg2) (((cfg0.win 2).blk t).view.emb j)
  refine pay_eq_proj _ _ _ _ j _ (fun k => ?_) (fun k => ?_)
  · unfold iblk0
    rw [View.read_apply]
    show V c main_arg0 (((cfg0.win 0).blk t).view.emb (ix2 (j 0) k)) = V c main_arg0 _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · unfold iblk0
    rw [View.read_apply]
    show V c main_arg2 (((cfg0.win 1).blk t).view.emb (ix2 (j 1) k)) = V c main_arg2 _
    refine congrArg (V c main_arg2) (funext fun a => Fin.ext ?_)
    match a with
    | ⟨0, _⟩ => show win0_1.index t (0 : Fin 2) * 128 + 1 * (j 1).val = win0_2.index t (1 : Fin 2) * 128 + 1 * (j 1).val; omega
    | ⟨1, _⟩ => show win0_1.index t (1 : Fin 2) * 128 + 1 * k.val = k.val; omega

/-- An index of the output is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row r lies in the block of point r / 5000. -/
theorem cover (i : S100000x128.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  refine ⟨⟨(i 0).val / 5000, by rw [hN]; omega⟩, flush0_2 _, ?_⟩
  rw [mem_blk]
  obtain ⟨-, -, -, -, e20, e21⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e20]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e21]; omega

/-- After the region the output array holds the projection of the two arrays as the region found them. -/
theorem array_eq (c : Dev nD) : (dat0 V c).arrAt 2 cfg0.N = Cert.Gcn.proj (V c main_arg0) (V c main_arg2) :=
  (dat0 V c).arrAt_eq_of_cover 2 (Cert.Gcn.proj (V c main_arg0) (V c main_arg2)) (fun t _ => flushed_eq V c t) cover

end Cert.KernelIdeal.Projection

end
-- ==== Proof.Reg1Value.lean ====
/-
  The second region's two output arrays: the hidden features and the scores.

  Grid point t loads rows 5000t … 5000t+4999 of the aggregate and the whole of the bias row, the weight row and the
  score bias. It stores h = max (a + b) 0, the bias broadcast down the rows, into the same rows of the first output,
  and into the same rows of the second the logistic of Σ_k h[p,k]·wl[0,k] + bl[0,0] (the change of float format is the
  identity over the extended reals; the accumulator starts at zero). The twenty row blocks tile both outputs.
-/
import proofs.«146198_j63032940036157_1_alg».proof.Proof.Gen.KernelIdeal.Frame
import proofs.«146198_j63032940036157_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The contraction's index maps, axis by axis -/

theorem lhs_axis0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhs_axis1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem rhs_axis0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem rhs_axis1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-! ## The body's two payloads at an index -/

/-- Entry (p, q) of the first store: the loaded row entry plus the bias at q, rectified. -/
theorem hidden_pay (x1 : Vec Ideal S1x128 .f32) (x0 : Vec Ideal S5000x128 .f32) (p : Fin 5000) (q : Fin 128) :
    k1_pay1 (F := Ideal) x1 x0 (ix2 p q) = max (x0 (ix2 p q) + x1 (ix2 (0 : Fin 1) q)) 0 := by
  unfold k1_pay1
  simp only [shapeCast_self]
  rw [maximumf_apply, addf_apply, broadcast_apply, broadcastTo_1b_ab_apply]
  show max _ (Ideal.ofBits .f32 0x00000000#32) = _
  rw [Ideal.ofBits_zero_f32]

/-- Entry (p, 0) of the second store: the logistic of row p of the first store against the weight row, plus the bias. -/
theorem score_pay (x1 : Vec Ideal S1x128 .f32) (x0 : Vec Ideal S5000x128 .f32) (x2 : Vec Ideal S1x128 .f32) (x3 : Vec Ideal S1x1 .f32) (p : Fin 5000) :
    k1_pay2 (F := Ideal) x1 x0 x2 x3 (ix2 p (0 : Fin 1))
      = Ideal.logistic ((∑ k : Fin 128, k1_pay1 (F := Ideal) x1 x0 (ix2 p k) * x2 (ix2 (0 : Fin 1) k)) + x3 (ix2 (0 : Fin 1) (0 : Fin 1))) := by
  unfold k1_pay2
  simp only [shapeCast_self]
  show Ideal.logistic (FloatOps.matmul (F := Ideal) dot_S5000x128_S128x1_S5000x1_1_0_0_1_n_n none _ _ (constant (F := Ideal) S5000x1 .f32 0x00000000#32) (ix2 p (0 : Fin 1)) + broadcastTo S5000x1 x3 broadcasts_S1x1_S5000x1 (ix2 p (0 : Fin 1))) = _
  rw [broadcastTo_1b_ab_apply]
  refine congrArg (fun s => Ideal.logistic (s + x3 (ix2 (0 : Fin 1) (0 : Fin 1)))) ?_
  refine (Ideal.matmul_constant_zero_apply dot_S5000x128_S128x1_S5000x1_1_0_0_1_n_n none _ _ (ix2 p (0 : Fin 1))).trans ?_
  rw [← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p (0 : Fin 1)) ((contrEquiv1 dot_S5000x128_S128x1_S5000x1_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x1_S5000x1_1_0_0_1_n_n.rhsIdx (ix2 p (0 : Fin 1)) ((contrEquiv1 dot_S5000x128_S128x1_S5000x1_1_0_0_1_n_n 128 rfl rfl).symm k) = ix2 k (0 : Fin 1) := funext fun a => Fin.ext (by
    match a with
    | ⟨0, _⟩ => exact (rhs_axis0 _ _).trans hk
    | ⟨1, _⟩ => exact rhs_axis1 _ _)
  rw [el, er, transpose_ix2_apply]
  rfl

/-- The first store at any index of the block, against an aggregate and a bias the loaded values are rows of. -/
theorem hidden_pay_eq (x1 : Vec Ideal S1x128 .f32) (x0 : Vec Ideal S5000x128 .f32)
    (A : Cert.Gcn.NodeFeat.Idx → EReal) (b : (⟨1, ![128]⟩ : Shape).Idx → EReal)
    (j : S5000x128.Idx) (i : Cert.Gcn.NodeFeat.Idx)
    (h0 : x0 (ix2 (j 0) (j 1)) = A i) (h1 : x1 (ix2 (0 : Fin 1) (j 1)) = b (ix1 (i 1))) :
    k1_pay1 (F := Ideal) x1 x0 j = Cert.Gcn.hidden A b i := by
  obtain ⟨p, q, rfl⟩ : ∃ (p : Fin 5000) (q : Fin 128), j = ix2 p q := ⟨j 0, j 1, eq_ix2 j⟩
  rw [hidden_pay]
  unfold Cert.Gcn.hidden
  exact congrArg₂ (fun u v => max (u + v) 0) h0 h1

/-- The second store at any index of the block, against the hidden features, a weight row and a score bias. -/
theorem score_pay_eq (x1 : Vec Ideal S1x128 .f32) (x0 : Vec Ideal S5000x128 .f32) (x2 : Vec Ideal S1x128 .f32) (x3 : Vec Ideal S1x1 .f32)
    (H : Cert.Gcn.NodeFeat.Idx → EReal) (wl : (⟨2, ![1, 128]⟩ : Shape).Idx → EReal) (bl : (⟨1, ![1]⟩ : Shape).Idx → EReal)
    (j : S5000x1.Idx) (i : Cert.Gcn.NodeOne.Idx)
    (h0 : ∀ k : Fin 128, k1_pay1 (F := Ideal) x1 x0 (ix2 (j 0) k) = H (ix2 (i 0) k))
    (h2 : ∀ k : Fin 128, x2 (ix2 (0 : Fin 1) k) = wl (ix2 (0 : Fin 1) k)) (h3 : x3 (ix2 (0 : Fin 1) (0 : Fin 1)) = bl (ix1 (0 : Fin 1))) :
    k1_pay2 (F := Ideal) x1 x0 x2 x3 j = Cert.Gcn.score H wl bl i := by
  obtain ⟨p, q, rfl⟩ : ∃ (p : Fin 5000) (q : Fin 1), j = ix2 p q := ⟨j 0, j 1, eq_ix2 j⟩
  obtain rfl : q = 0 := Subsingleton.elim _ _
  rw [score_pay]
  unfold Cert.Gcn.score
  rw [h3]
  exact congrArg (fun s => Ideal.logistic (s + bl (ix1 (0 : Fin 1)))) (Finset.sum_congr rfl fun k _ => congrArg₂ (· * ·) (h0 k) (h2 k))

/-! ## Blocks and the arrays -/

theorem hz : (![0, 0] : Fin 2 → Nat) = fun _ => 0 := funext fun a => by fin_cases a <;> rfl

/-- The printed index maps over the grid: the row blocks of the aggregate and of both outputs move with the
    point, the three small operands stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The bias row as the region finds it, read along the feature axis. -/
abbrev biasOf (c : Dev nD) : (⟨1, ![128]⟩ : Shape).Idx → EReal := fun i => (V c main_v44 : S1x128.Idx → EReal) (ix2 (0 : Fin 1) (i 0))
/-- The score bias as the region finds it. -/
abbrev scoreBiasOf (c : Dev nD) : (⟨1, ![1]⟩ : Shape).Idx → EReal := fun _ => (V c main_v45 : S1x1.Idx → EReal) (ix2 (0 : Fin 1) (0 : Fin 1))
/-- The hidden features of the arrays as the region finds them. -/
abbrev hiddenOf (c : Dev nD) : Cert.Gcn.NodeFeat.Idx → EReal := Cert.Gcn.hidden (V c main_v43) (biasOf V c)

/-- The aggregate's block at point t, at (p, q), is the array at (5000t + p, q). -/
theorem agg_block (c : Dev nD) (t : Fin cfg1.N) (p : Fin 5000) (q : Fin 128) (i : S100000x128.Idx)
    (hi0 : (i 0).val = t.val * 5000 + p.val) (hi1 : (i 1).val = q.val) :
    (iblk1 V c 0 t : Vec Ideal S5000x128 .f32) (ix2 p q) = (V c main_v43 : S100000x128.Idx → EReal) i := by
  obtain ⟨e00, e01, -⟩ := idx_facts t
  unfold iblk1
  rw [View.read_apply]
  show V c main_v43 (((cfg1.win 0).blk t).view.emb (ix2 p q)) = V c main_v43 i
  refine congrArg (V c main_v43) (funext fun a => Fin.ext ?_)
  match a with
  | ⟨0, _⟩ => show win1_0.index t (0 : Fin 2) * 5000 + 1 * p.val = (i 0).val; omega
  | ⟨1, _⟩ => show win1_0.index t (1 : Fin 2) * 128 + 1 * q.val = (i 1).val; omega

/-- The bias row's block at every point is the row. -/
theorem bias_block (c : Dev nD) (t : Fin cfg1.N) (q : Fin 128) :
    (iblk1 V c 1 t : Vec Ideal S1x128 .f32) (ix2 (0 : Fin 1) q) = (V c main_v44 : S1x128.Idx → EReal) (ix2 (0 : Fin 1) q) := by
  obtain ⟨-, -, e10, e11, -⟩ := idx_facts t
  unfold iblk1
  rw [View.read_apply]
  show V c main_v44 (((cfg1.win 1).blk t).view.emb (ix2 (0 : Fin 1) q)) = V c main_v44 _
  refine congrArg (V c main_v44) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- The weight row's block at every point is the row. -/
theorem weight_block (c : Dev nD) (t : Fin cfg1.N) (q : Fin 128) :
    (iblk1 V c 2 t : Vec Ideal S1x128 .f32) (ix2 (0 : Fin 1) q) = (V c main_arg4 : S1x128.Idx → EReal) (ix2 (0 : Fin 1) q) := by
  obtain ⟨-, -, -, -, e20, e21, -⟩ := idx_facts t
  unfold iblk1
  rw [View.read_apply]
  show V c main_arg4 (((cfg1.win 2).blk t).view.emb (ix2 (0 : Fin 1) q)) = V c main_arg4 _
  refine congrArg (V c main_arg4) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- The score bias's block at every point is the one entry. -/
theorem score_bias_block (c : Dev nD) (t : Fin cfg1.N) :
    (iblk1 V c 3 t : Vec Ideal S1x1 .f32) (ix2 (0 : Fin 1) (0 : Fin 1)) = (V c main_v45 : S1x1.Idx → EReal) (ix2 (0 : Fin 1) (0 : Fin 1)) := by
  obtain ⟨-, -, -, -, -, -, e30, e31, -⟩ := idx_facts t
  unfold iblk1
  rw [View.read_apply]
  show V c main_v45 (((cfg1.win 3).blk t).view.emb (ix2 (0 : Fin 1) (0 : Fin 1))) = V c main_v45 _
  refine congrArg (V c main_v45) (funext fun a => Fin.ext ?_)
  match a with
  | ⟨0, _⟩ => show win1_3.index t (0 : Fin 2) * 1 + 1 * 0 = 0; omega
  | ⟨1, _⟩ => show win1_3.index t (1 : Fin 2) * 1 + 1 * 0 = 0; omega

/-- The first store at point t, at (p, q), is the hidden feature at (5000t + p, q). -/
theorem hidden_block (c : Dev nD) (t : Fin cfg1.N) (p : Fin 5000) (q : Fin 128) (i : S100000x128.Idx)
    (hi0 : (i 0).val = t.val * 5000 + p.val) (hi1 : (i 1).val = q.val) :
    k1_pay1 (F := Ideal) (iblk1 V c 1 t) (iblk1 V c 0 t) (ix2 p q) = hiddenOf V c i := by
  refine hidden_pay_eq _ _ _ _ (ix2 p q) i (agg_block V c t p q i hi0 hi1) ?_
  refine (bias_block V c t q).trans ?_
  show (V c main_v44 : S1x128.Idx → EReal) (ix2 (0 : Fin 1) q) = (V c main_v44 : S1x128.Idx → EReal) (ix2 (0 : Fin 1) (i 1))
  exact congrArg (fun z => (V c main_v44 : S1x128.Idx → EReal) (ix2 (0 : Fin 1) z)) (Fin.ext hi1.symm)

/-- What point t writes back into the first output is block t of the hidden features. -/
theorem flushed_hidden (c : Dev nD) (t : Fin cfg1.N) :
    (dat1 V c).flushed 4 t = ((cfg1.win 4).blk t).view.read (Elt Ideal) (hiddenOf V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz]
  obtain ⟨-, -, -, -, -, -, -, -, e40, e41, -⟩ := idx_facts t
  funext j
  show k1_pay1 (F := Ideal) (iblk1 V c 1 t) (iblk1 V c 0 t) j = hiddenOf V c (((cfg1.win 4).blk t).view.emb j)
  obtain ⟨p, q, rfl⟩ : ∃ (p : Fin 5000) (q : Fin 128), j = ix2 p q := ⟨j 0, j 1, eq_ix2 j⟩
  refine hidden_block V c t p q _ ?_ ?_
  · show win1_4.index t (0 : Fin 2) * 5000 + 1 * p.val = t.val * 5000 + p.val; omega
  · show win1_4.index t (1 : Fin 2) * 128 + 1 * q.val = q.val; omega

/-- What point t writes back into the second output is block t of the scores. -/
theorem flushed_score (c : Dev nD) (t : Fin cfg1.N) :
    (dat1 V c).flushed 5 t = ((cfg1.win 5).blk t).view.read (Elt Ideal) (Cert.Gcn.score (hiddenOf V c) (V c main_arg4) (scoreBiasOf V c)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz, View.ld_unit_zero (S := S1x1) hz]
  obtain ⟨-, -, -, -, -, -, -, -, -, -, e50, e51⟩ := idx_facts t
  funext j
  show k1_pay2 (F := Ideal) (iblk1 V c 1 t) (iblk1 V c 0 t) (iblk1 V c 2 t) (iblk1 V c 3 t) j = Cert.Gcn.score (hiddenOf V c) (V c main_arg4) (scoreBiasOf V c) (((cfg1.win 5).blk t).view.emb j)
  refine score_pay_eq _ _ _ _ _ _ _ j _ (fun k => ?_) (fun k => weight_block V c t k) (score_bias_block V c t)
  refine hidden_block V c t (j 0) k _ ?_ rfl
  show win1_5.index t (0 : Fin 2) * 5000 + 1 * (j 0).val = t.val * 5000 + (j 0).val; omega

/-- An index of the first output is in point t's block iff each coordinate is in the block's range on its axis. -/
theorem mem_blk4 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v46_0).slice (win1_4.rect t)).set ↔ _
  rw [View.set_slice_whole, Rect.mem_set_unit]
  exact Iff.rfl

/-- The same for the second output. -/
theorem mem_blk5 (t : Fin cfg1.N) (i : S100000x1.Idx) :
    i ∈ ((cfg1.win 5).blk t).view.set ↔ ∀ a : Fin 2, win1_5.index t a * S5000x1.size a ≤ (i a).val ∧ (i a).val < win1_5.index t a * S5000x1.size a + S5000x1.size a := by
  show i ∈ ((View.whole main_v46_1).slice (win1_5.rect t)).set ↔ _
  rw [View.set_slice_whole, Rect.mem_set_unit]
  exact Iff.rfl

/-- Row r of the first output lies in the block of point r / 5000. -/
theorem cover4 (i : S100000x128.Idx) : ∃ t : Fin cfg1.N, (cfg1.win 4).flush t = true ∧ i ∈ ((cfg1.win 4).blk t).view.set := by
  have hN : cfg1.N = 20 := N_1
  have hi0 : (i 0).val < 100000 := (i 0).isLt
  have hi1 : (i 1).val < 128 := (i 1).isLt
  refine ⟨⟨(i 0).val / 5000, by rw [hN]; omega⟩, flush1_4 _, ?_⟩
  rw [mem_blk4]
  obtain ⟨-, -, -, -, -, -, -, -, e40, e41, -⟩ := idx_facts ⟨(i 0).val / 5000, by rw [hN]; omega⟩
  intro a
  match a with
  | ⟨0, _⟩ => show win1_4.index _ (0 : Fin 2) * 5000 ≤ (i 0).val ∧ (i 0).val < win1_4.index _ (0 : Fin 2) * 5000 + 5000; rw [e40]; show (i 0).val / 5000 * 5000 ≤ (i 0).val ∧ (i 0).val < (i 0).val / 5000 * 5000 + 5000; omega
  | ⟨1, _⟩ => show win1_4.index _ (1 : Fin 2) * 128 ≤ (i 1).val ∧ (i 1).val < win1_4.index _ (1 : Fin 2) * 128 + 128; rw [e41]; omega

/-- Row r of the second output lies in the block of point r / 5000. -/
theorem cover5 (i : S100000x1.Idx) : ∃ t : Fin cfg1.N, (cfg1.win 5).flush t = true ∧ i ∈ ((cfg1.win 5).blk t).view.set := by
  have hN : cfg1.N = 20 := N_1
  have hi0 : (i 0).val < 100000 := (i 0).isLt
  have hi1 : (i 1).val < 1 := (i 1).isLt
  refine ⟨⟨(i 0).val / 5000, by rw [hN]; omega⟩, flush1_5 _, ?_⟩
  rw [mem_blk5]
  obtain ⟨-, -, -, -, -, -, -, -, -, -, e50, e51⟩ := idx_facts ⟨(i 0).val / 5000, by rw [hN]; omega⟩
  intro a
  match a with
  | ⟨0, _⟩ => show win1_5.index _ (0 : Fin 2) * 5000 ≤ (i 0).val ∧ (i 0).val < win1_5.index _ (0 : Fin 2) * 5000 + 5000; rw [e50]; show (i 0).val / 5000 * 5000 ≤ (i 0).val ∧ (i 0).val < (i 0).val / 5000 * 5000 + 5000; omega
  | ⟨1, _⟩ => show win1_5.index _ (1 : Fin 2) * 1 ≤ (i 1).val ∧ (i 1).val < win1_5.index _ (1 : Fin 2) * 1 + 1; rw [e51]; omega

/-- After the region the first output holds the hidden features of the arrays as the region found them. -/
theorem hidden_array (c : Dev nD) : (dat1 V c).arrAt 4 cfg1.N = hiddenOf V c :=
  (dat1 V c).arrAt_eq_of_cover 4 (hiddenOf V c) (fun t _ => flushed_hidden V c t) cover4

/-- After the region the second output holds their scores. -/
theorem score_array (c : Dev nD) : (dat1 V c).arrAt 5 cfg1.N = Cert.Gcn.score (hiddenOf V c) (V c main_arg4) (scoreBiasOf V c) :=
  (dat1 V c).arrAt_eq_of_cover 5 (Cert.Gcn.score (hiddenOf V c) (V c main_arg4) (scoreBiasOf V c)) (fun t _ => flushed_score V c t) cover5

end Cert.KernelIdeal.Head

end
-- ==== Proof.Aggregate.lean ====
/-
  The message aggregation both programs run on the host between the projection and the head, as one function of the
  projected features and the edge list.

  Every node gets a self loop: the message list is the 640000 edges followed by one (n, n) per node. The degree of
  a node is the number of messages that arrive at it (a scatter-add of ones); its weight is deg^(-1/2) where the
  degree is positive and 0 elsewhere. A message from s to d carries row s of the projected features scaled by
  weight(s)·weight(d), and the aggregate is the scatter-add of the messages at their destinations. Endpoints read
  through a gather wrap once when negative (index + 100000), as the source programs' indexing does.
-/
import proofs.«146198_j63032940036157_1_alg».proof.Proof.Gen.KernelIdeal

noncomputable section

namespace Cert.Gcn

open Cert.KernelIdeal Cert.KernelIdeal.Gen Idealize.ShloMosaic

variable {F : FTy → Type} [FloatOps F]

/-- Row `0` of the edge list followed by the self loops: the message sources. -/
def sources (ei : IVec S2x640000 32) : IVec S740000 32 :=
  concatenate S740000 0 [⟨S640000, shapeCast _ (extractStridedSlice S1x640000 ![0, 0] ei slices_S2x640000_S1x640000_0_0) shapeCasts_S1x640000_S640000⟩, ⟨S100000, iotaInDim S100000 32 0⟩] concatenates_S640000_S100000_S740000_d0

/-- Row `1` of the edge list followed by the self loops: the message destinations. -/
def dests (ei : IVec S2x640000 32) : IVec S740000 32 :=
  concatenate S740000 0 [⟨S640000, shapeCast _ (extractStridedSlice S1x640000 ![1, 0] ei slices_S2x640000_S1x640000_1_0) shapeCasts_S1x640000_S640000⟩, ⟨S100000, iotaInDim S100000 32 0⟩] concatenates_S640000_S100000_S740000_d0

/-- A negative endpoint counts from the end. -/
def wrap (v : IVec S740000 32) : IVec S740000 32 :=
  select (cmpi .slt v (broadcastInDim S740000 ![] bcast_S_S740000 (constantI S_ 32 0#32))) (addi v (broadcastInDim S740000 ![] bcast_S_S740000 (constantI S_ 32 100000#32))) v

/-- How many messages arrive at each node. -/
def degree (ei : IVec S2x640000 32) : Vec F S100000 .f32 :=
  Host.scatterAdd scatter_S100000_S740000x1_S740000_n_0_0_1 (broadcastInDim S100000 ![] bcast_S_S100000 (constant S_ .f32 0x00000000#32)) (broadcastInDim S740000x1 ![0] bcast_S740000_S740000x1_0 (dests ei)) (broadcastInDim S740000 ![] bcast_S_S740000 (constant S_ .f32 0x3F800000#32))

/-- deg^(-1/2) where the degree is positive, 0 elsewhere. -/
def weight (ei : IVec S2x640000 32) : Vec F S100000 .f32 :=
  select (cmpf .ogt (degree (F := F) ei) (broadcastInDim S100000 ![] bcast_S_S100000 (constant S_ .f32 0x00000000#32))) (Host.rsqrt (degree (F := F) ei)) (broadcastInDim S100000 ![] bcast_S_S100000 (id (constant S_ .f32 0x00000000#32)))

/-- weight(source)·weight(destination), per message. -/
def coeff (ei : IVec S2x640000 32) : Vec F S740000 .f32 :=
  mulf (Host.gather gather_S100000_S740000x1_S740000_n_0_n_n_0_1_1 (weight (F := F) ei) (broadcastInDim S740000x1 ![0] bcast_S740000_S740000x1_0 (wrap (sources ei))))
    (Host.gather gather_S100000_S740000x1_S740000_n_0_n_n_0_1_1 (weight (F := F) ei) (broadcastInDim S740000x1 ![0] bcast_S740000_S740000x1_0 (wrap (dests ei))))

/-- The aggregate: each message, its source's row of `xw` scaled by its coefficient, added at its destination. -/
def aggregate (xw : Vec F S100000x128 .f32) (ei : IVec S2x640000 32) : Vec F S100000x128 .f32 :=
  Host.scatterAdd scatter_S100000x128_S740000x1_S740000x128_1_0_0_1 (broadcastInDim S100000x128 ![] bcast_S_S100000x128 (constant S_ .f32 0x00000000#32)) (broadcastInDim S740000x1 ![0] bcast_S740000_S740000x1_0 (dests ei))
    (mulf (Host.gather gather_S100000x128_S740000x1_S740000x128_1_0_n_n_0_1_1128 xw (broadcastInDim S740000x1 ![0] bcast_S740000_S740000x1_0 (wrap (sources ei))))
      (broadcastInDim S740000x128 ![0, 1] bcast_S740000x1_S740000x128_0_1 (broadcastInDim S740000x1 ![0] bcast_S740000_S740000x1_0 (coeff (F := F) ei))))

end Cert.Gcn

end
-- ==== Proof.Between.lean ====
/-
  What the second region finds: the host stretch between the two regions, read back.

  From the contents the first region leaves (`Gen.W1`), the 58 host operations between the regions write the
  aggregate of the first region's output over the edge list, the bias as a row, and the score bias as a 1×1 array;
  the weight row is an argument nobody writes.
-/
import proofs.«146198_j63032940036157_1_alg».proof.Proof.Gen.KernelIdeal.Frame
import proofs.«146198_j63032940036157_1_alg».proof.Proof.Aggregate
import Idealize.ShloMosaic.Lib.StableHlo.Run

set_option maxRecDepth 16384

noncomputable section

namespace Cert.KernelIdeal.Between

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

set_option maxHeartbeats 4000000 in
/-- The second region's first operand is the aggregate of the first region's output over the edge list. -/
theorem entry_aggregate (c : Dev nD) :
    W4 m ρ c (Proc.devRef .tc main_v43)
      = Cert.Gcn.aggregate (F := F) (W1 m ρ c (Proc.devRef .tc main_v0)) (W1 m ρ c (Proc.devRef .tc main_arg1)) := by
  show StableHlo.after hostOps1_2 (StableHlo.after hostOps1_1 (StableHlo.after hostOps1 (W1 m ρ c))) (Proc.devRef .tc main_v43) = _
  after_results_simp <;> rfl

/-- Its second operand is the bias as a row. -/
theorem entry_bias (c : Dev nD) :
    W4 m ρ c (Proc.devRef .tc main_v44) = shapeCast S1x128 (W1 m ρ c (Proc.devRef .tc main_arg3)) shapeCasts_S128_S1x128 := by
  show StableHlo.after hostOps1_2 (StableHlo.after hostOps1_1 (StableHlo.after hostOps1 (W1 m ρ c))) (Proc.devRef .tc main_v44) = _
  after_results_simp <;> rfl

/-- Its fourth operand is the score bias as a 1×1 array. -/
theorem entry_score_bias (c : Dev nD) :
    W4 m ρ c (Proc.devRef .tc main_v45) = shapeCast S1x1 (W1 m ρ c (Proc.devRef .tc main_arg5)) shapeCasts_S1_S1x1 := by
  show StableHlo.after hostOps1_2 (StableHlo.after hostOps1_1 (StableHlo.after hostOps1 (W1 m ρ c))) (Proc.devRef .tc main_v45) = _
  after_results_simp <;> rfl

/-- Its third operand, the weight row, is as the first region left it. -/
theorem entry_weights (c : Dev nD) :
    W4 m ρ c (Proc.devRef .tc main_arg4) = W1 m ρ c (Proc.devRef .tc main_arg4) := by
  show StableHlo.after hostOps1_2 (StableHlo.after hostOps1_1 (StableHlo.after hostOps1 (W1 m ρ c))) (Proc.devRef .tc main_arg4) = _
  after_results_simp <;> rfl

/-- The first region leaves the arguments it does not write as launched. -/
theorem W1_arg1 (c : Dev nD) : W1 m ρ c (Proc.devRef .tc main_arg1) = m ((c : Thread nD τ).loc main_arg1) := W1_of_ne m ρ c main_arg1 (by decide)
theorem W1_arg3 (c : Dev nD) : W1 m ρ c (Proc.devRef .tc main_arg3) = m ((c : Thread nD τ).loc main_arg3) := W1_of_ne m ρ c main_arg3 (by decide)
theorem W1_arg4 (c : Dev nD) : W1 m ρ c (Proc.devRef .tc main_arg4) = m ((c : Thread nD τ).loc main_arg4) := W1_of_ne m ρ c main_arg4 (by decide)
theorem W1_arg5 (c : Dev nD) : W1 m ρ c (Proc.devRef .tc main_arg5) = m ((c : Thread nD τ).loc main_arg5) := W1_of_ne m ρ c main_arg5 (by decide)

end Cert.KernelIdeal.Between

end
-- ==== Proof.KValue.lean ====
/-
  The kernel program's two results as functions of the arguments.

  After the second region the two result arrays hold what its pipeline leaves: the hidden features and the scores of
  the arrays that region finds. Those are the aggregate, over the edge list, of what the first region leaves — the
  projection of x and w —, the bias as a row, the weight row and the score bias as a 1×1 array. Put together:
  h = hidden (aggregate (proj x w) edges) b and out = score h wl bl.
-/
import proofs.«146198_j63032940036157_1_alg».proof.Proof.KRun
import proofs.«146198_j63032940036157_1_alg».proof.Proof.Reg0Value
import proofs.«146198_j63032940036157_1_alg».proof.Proof.Reg1Value
import proofs.«146198_j63032940036157_1_alg».proof.Proof.Between
import Idealize.ShloMosaic.Lib.ValueLayout

set_option maxRecDepth 16384

noncomputable section

namespace Cert.KernelIdeal.Results

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The hidden features of the arguments. -/
abbrev hiddenOfArgs (c : Dev nD) : Cert.Gcn.NodeFeat.Idx → EReal :=
  Cert.Gcn.hidden (Cert.Gcn.aggregate (F := Ideal) (Cert.Gcn.proj (m ((c : Thread nD τ).loc main_arg0)) (m ((c : Thread nD τ).loc main_arg2))) (m ((c : Thread nD τ).loc main_arg1)))
    (m ((c : Thread nD τ).loc main_arg3))

/-- What the first region leaves in its output: the projection of the launch contents. -/
theorem projected (c : Dev nD) :
    W1 m ρ c (Proc.devRef .tc main_v0) = Cert.Gcn.proj (m ((c : Thread nD τ).loc main_arg0)) (m ((c : Thread nD τ).loc main_arg2)) :=
  (W1_arr m ρ c 2).trans (Cert.KernelIdeal.Projection.array_eq (V0 m ρ) c)

/-- What the second region finds as its first operand. -/
theorem entered_aggregate (c : Dev nD) :
    V4 m ρ c main_v43 = Cert.Gcn.aggregate (F := Ideal) (Cert.Gcn.proj (m ((c : Thread nD τ).loc main_arg0)) (m ((c : Thread nD τ).loc main_arg2))) (m ((c : Thread nD τ).loc main_arg1)) := by
  show W4 m ρ c (Proc.devRef .tc main_v43) = _
  rw [Cert.KernelIdeal.Between.entry_aggregate, projected, Cert.KernelIdeal.Between.W1_arg1]

/-- The bias row it finds, read along the feature axis, is the bias. -/
theorem entered_bias (c : Dev nD) : Cert.KernelIdeal.Head.biasOf (V4 m ρ) c = m ((c : Thread nD τ).loc main_arg3) := by
  funext i
  show W4 m ρ c (Proc.devRef .tc main_v44) (ix2 (0 : Fin 1) (i 0)) = _
  rw [Cert.KernelIdeal.Between.entry_bias, Cert.KernelIdeal.Between.W1_arg3]
  exact (shapeCast_a_1a_apply _ shapeCasts_S128_S1x128 (0 : Fin 1) (i 0)).trans (congrArg (m ((c : Thread nD τ).loc main_arg3)) (eq_ix1 i).symm)

/-- The score bias it finds is the score bias. -/
theorem entered_score_bias (c : Dev nD) : Cert.KernelIdeal.Head.scoreBiasOf (V4 m ρ) c = m ((c : Thread nD τ).loc main_arg5) := by
  funext i
  show W4 m ρ c (Proc.devRef .tc main_v45) (ix2 (0 : Fin 1) (0 : Fin 1)) = _
  rw [Cert.KernelIdeal.Between.entry_score_bias, Cert.KernelIdeal.Between.W1_arg5]
  refine (shapeCast_a_1a_apply _ shapeCasts_S1_S1x1 (0 : Fin 1) (0 : Fin 1)).trans ?_
  refine congrArg (m ((c : Thread nD τ).loc main_arg5)) (funext fun d => ?_)
  match d with
  | ⟨0, _⟩ => exact Fin.ext (Nat.lt_one_iff.mp (i ⟨0, _⟩).isLt).symm

/-- The weight row it finds is the weight row. -/
theorem entered_weights (c : Dev nD) : V4 m ρ c main_arg4 = m ((c : Thread nD τ).loc main_arg4) := by
  show W4 m ρ c (Proc.devRef .tc main_arg4) = _
  rw [Cert.KernelIdeal.Between.entry_weights, Cert.KernelIdeal.Between.W1_arg4]

/-- The hidden features it computes are those of the arguments. -/
theorem entered_hidden (c : Dev nD) : Cert.KernelIdeal.Head.hiddenOf (V4 m ρ) c = hiddenOfArgs m c := by
  show Cert.Gcn.hidden (V4 m ρ c main_v43) (Cert.KernelIdeal.Head.biasOf (V4 m ρ) c) = _
  rw [entered_aggregate, entered_bias]

/-- The second result array of the program (the hidden features) after the run. -/
theorem hidden_result (c : Dev nD) : W5 m ρ c (Proc.devRef .tc main_v46_0) = hiddenOfArgs m c :=
  (W5_arr m ρ c 4).trans ((Cert.KernelIdeal.Head.hidden_array (V4 m ρ) c).trans (entered_hidden m ρ c))

/-- The first result array of the program (the scores) after the run. -/
theorem score_result (c : Dev nD) :
    W5 m ρ c (Proc.devRef .tc main_v46_1) = Cert.Gcn.score (hiddenOfArgs m c) (m ((c : Thread nD τ).loc main_arg4)) (m ((c : Thread nD τ).loc main_arg5)) := by
  refine (W5_arr m ρ c 5).trans ((Cert.KernelIdeal.Head.score_array (V4 m ρ) c).trans ?_)
  rw [entered_hidden, entered_weights, entered_score_bias]

/-- The run, read: every weakly fair execution terminates with the scores and the hidden features of the arguments
    in the two result arrays and the arguments as launched. -/
theorem run : θ_run defs (onTc (τ := τ) (main (F := Ideal))) ⟨m, fun _ => 0, ρ⟩ (fun r => ∀ c : Dev nD,
      r.2.mem ((c.tc : Thread nD τ).loc main_v46_1) = Cert.Gcn.score (hiddenOfArgs m c) (m ((c : Thread nD τ).loc main_arg4)) (m ((c : Thread nD τ).loc main_arg5))
      ∧ r.2.mem ((c.tc : Thread nD τ).loc main_v46_0) = hiddenOfArgs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (score_result m ρ c), (h c).2.1.trans (hidden_result m ρ c), (h c).2.2⟩)
    (run_results (F := Ideal) m ρ)

end Cert.KernelIdeal.Results

end
-- ==== Proof.RefSide.lean ====
/-
  The reference's two results, read index by index.

  Its run ends with the hidden features at rectifier(aggregate(x·wᵀ) + bias) and the scores at
  1 / (1 + e^(-(h·wlᵀ + bl))), every operation on the host. The aggregate is the same function of the projected
  features and the edge list as in the kernel's program (`Cert.Gcn.aggregate`): the two programs print the same
  operations there. Over the extended reals a host contraction is the plain sum of products, a broadcast reads its
  operand at the surviving coordinates, and the logistic is by definition 1 / (1 + e^(-x)).
-/
import proofs.«146198_j63032940036157_1_alg».proof.Proof.RefRun
import proofs.«146198_j63032940036157_1_alg».proof.Proof.Aggregate
import proofs.«146198_j63032940036157_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.Results

open Cert.ReferenceIdeal Cert.ReferenceIdeal.Gen Idealize.ShloMosaic Idealize.ShloMosaic.TcCoe Idealize.SL.Sem
open Idealize.ShloMosaic.ValueIdx
open scoped BigOperators

/-! ## The two results' terms, over the shared aggregate (at any float family) -/

section Terms
variable {F : FTy → Type} [FloatOps F]
variable (m : (ℓ : Loc nD τ sig) → Buf (Elt F) ℓ)

/-- The projected features as the reference computes them. -/
abbrev projTerm (c : Dev nD) : Vec F S100000x128 .f32 :=
  Host.dotGeneral dot_S100000x128_S128x128_S100000x128_1_0_0_1_n_n none (m ((c.tc : Thread nD τ).loc main_arg0)) (transpose S128x128 [1, 0] (m ((c.tc : Thread nD τ).loc main_arg2)) transposes_S128x128_S128x128_1_0)

/-- The hidden features' term: the aggregate plus the bias broadcast down the rows, rectified. -/
def hiddenTerm (c : Dev nD) : Vec F S100000x128 .f32 :=
  maximumf (addf (Cert.Gcn.aggregate (F := F) (projTerm m c) (m ((c.tc : Thread nD τ).loc main_arg1)))
      (broadcastInDim S100000x128 ![0, 1] bcast_S1x128_S100000x128_0_1 (broadcastInDim S1x128 ![1] bcast_S128_S1x128_1 (m ((c.tc : Thread nD τ).loc main_arg3)))))
    (broadcastInDim S100000x128 ![] bcast_S_S100000x128 (constant S_ .f32 0x00000000#32))

set_option maxHeartbeats 4000000 in
theorem hidden_term (c : Dev nD) : RunP.res_main_v48 (F := F) m c = hiddenTerm m c := by
  unfold RunP.res_main_v48 hiddenTerm
  rfl

set_option maxHeartbeats 4000000 in
theorem score_term (c : Dev nD) : RunP.res_main_v59 (F := F) m c
    = Host.divf (broadcastInDim S100000x1 ![] bcast_S_S100000x1 (constant S_ .f32 0x3F800000#32))
        (addf (broadcastInDim S100000x1 ![] bcast_S_S100000x1 (constant S_ .f32 0x3F800000#32))
          (Host.exp (Host.negf (addf (Host.dotGeneral dot_S100000x128_S128x1_S100000x1_1_0_0_1_n_n none (hiddenTerm m c) (transpose S128x1 [1, 0] (m ((c.tc : Thread nD τ).loc main_arg4)) transposes_S1x128_S128x1_1_0))
            (broadcastInDim S100000x1 ![0, 1] bcast_S1x1_S100000x1_0_1 (broadcastInDim S1x1 ![1] bcast_S1_S1x1_1 (m ((c.tc : Thread nD τ).loc main_arg5)))))))) := by
  unfold RunP.res_main_v59 hiddenTerm
  rfl

end Terms

/-! ## Over the extended reals -/

section Reads

/-! ### The two contractions' index maps, axis by axis -/

theorem proj_lhs0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem proj_lhs1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem proj_rhs0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem proj_rhs1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

theorem score_lhs0 (i : S100000x1.Idx) (q : dot_S100000x128_S128x1_S100000x1_1_0_0_1_n_n.contr.Idx) :
    (dot_S100000x128_S128x1_S100000x1_1_0_0_1_n_n.lhsIdx i q 0).val = (i 0).val := by
  unfold DotDims.lhsIdx
  rw [dif_neg (show ¬(0 : Fin S100000x128.rank) ∈ dot_S100000x128_S128x1_S100000x1_1_0_0_1_n_n.lhsBatch by decide), dif_pos (show (0 : Fin S100000x128.rank) ∈ dot_S100000x128_S128x1_S100000x1_1_0_0_1_n_n.lhsNonContracting by decide)]
  rfl
theorem score_lhs1 (i : S100000x1.Idx) (q : dot_S100000x128_S128x1_S100000x1_1_0_0_1_n_n.contr.Idx) :
    (dot_S100000x128_S128x1_S100000x1_1_0_0_1_n_n.lhsIdx i q 1).val = (q ⟨0, by decide⟩).val :=
  dot_S100000x128_S128x1_S100000x1_1_0_0_1_n_n.lhsIdx_val_of_single rfl i q
theorem score_rhs0 (i : S100000x1.Idx) (q : dot_S100000x128_S128x1_S100000x1_1_0_0_1_n_n.contr.Idx) :
    (dot_S100000x128_S128x1_S100000x1_1_0_0_1_n_n.rhsIdx i q 0).val = (q ⟨0, by decide⟩).val :=
  dot_S100000x128_S128x1_S100000x1_1_0_0_1_n_n.rhsIdx_val_of_single rfl i q
theorem score_rhs1 (i : S100000x1.Idx) (q : dot_S100000x128_S128x1_S100000x1_1_0_0_1_n_n.contr.Idx) :
    (dot_S100000x128_S128x1_S100000x1_1_0_0_1_n_n.rhsIdx i q 1).val = (i 1).val := by
  unfold DotDims.rhsIdx
  rw [dif_neg (show ¬(1 : Fin S128x1.rank) ∈ dot_S100000x128_S128x1_S100000x1_1_0_0_1_n_n.rhsBatch by decide), dif_pos (show (1 : Fin S128x1.rank) ∈ dot_S100000x128_S128x1_S100000x1_1_0_0_1_n_n.rhsNonContracting by decide)]
  rfl

/-- A host contraction against the transposed weights is the projection. -/
theorem proj_eq (x : FVec Ideal S100000x128 .f32) (w : FVec Ideal S128x128 .f32) :
    Host.dotGeneral (F := Ideal) dot_S100000x128_S128x128_S100000x128_1_0_0_1_n_n none x (transpose S128x128 [1, 0] w transposes_S128x128_S128x128_1_0) = Cert.Gcn.proj x w := by
  funext i
  obtain ⟨r, q, rfl⟩ : ∃ (r : Fin 100000) (q : Fin 128), i = ix2 r q := ⟨i 0, i 1, eq_ix2 i⟩
  simp only [Host.dotGeneral]
  rw [Ideal.dotGeneral_apply, ← Equiv.sum_comp (contrEquiv1 dot_S100000x128_S128x128_S100000x128_1_0_0_1_n_n 128 rfl rfl).symm]
  unfold Cert.Gcn.proj
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r q) ((contrEquiv1 dot_S100000x128_S128x128_S100000x128_1_0_0_1_n_n 128 rfl rfl).symm k) = ix2 r k := funext fun a => Fin.ext (by
    match a with
    | ⟨0, _⟩ => exact proj_lhs0 _ _
    | ⟨1, _⟩ => exact (proj_lhs1 _ _).trans hk)
  have er : dot_S100000x128_S128x128_S100000x128_1_0_0_1_n_n.rhsIdx (ix2 r q) ((contrEquiv1 dot_S100000x128_S128x128_S100000x128_1_0_0_1_n_n 128 rfl rfl).symm k) = ix2 k q := funext fun a => Fin.ext (by
    match a with
    | ⟨0, _⟩ => exact (proj_rhs0 _ _).trans hk
    | ⟨1, _⟩ => exact proj_rhs1 _ _)
  rw [el, er, transpose_ix2_apply]

/-- A host contraction of the rows against the transposed weight row is each row's inner product with it. -/
theorem rowdot_apply (h : FVec Ideal S100000x128 .f32) (wl : FVec Ideal S1x128 .f32) (r : Fin 100000) :
    Host.dotGeneral (F := Ideal) dot_S100000x128_S128x1_S100000x1_1_0_0_1_n_n none h (transpose S128x1 [1, 0] wl transposes_S1x128_S128x1_1_0) (ix2 r (0 : Fin 1))
      = ∑ k : Fin 128, h (ix2 r k) * wl (ix2 (0 : Fin 1) k) := by
  simp only [Host.dotGeneral]
  rw [Ideal.dotGeneral_apply, ← Equiv.sum_comp (contrEquiv1 dot_S100000x128_S128x1_S100000x1_1_0_0_1_n_n 128 rfl rfl).symm]
  refine Finset.sum_congr rfl fun k _ => ?_
  have hk := contrEquiv1_symm_val dot_S100000x128_S128x1_S100000x1_1_0_0_1_n_n 128 rfl rfl k
  have el : dot_S100000x128_S128x1_S100000x1_1_0_0_1_n_n.lhsIdx (ix2 r (0 : Fin 1)) ((contrEquiv1 dot_S100000x128_S128x1_S100000x1_1_0_0_1_n_n 128 rfl rfl).symm k) = ix2 r k := funext fun a => Fin.ext (by
    match a with
    | ⟨0, _⟩ => exact score_lhs0 _ _
    | ⟨1, _⟩ => exact (score_lhs1 _ _).trans hk)
  have er : dot_S100000x128_S128x1_S100000x1_1_0_0_1_n_n.rhsIdx (ix2 r (0 : Fin 1)) ((contrEquiv1 dot_S100000x128_S128x1_S100000x1_1_0_0_1_n_n 128 rfl rfl).symm k) = ix2 k (0 : Fin 1) := funext fun a => Fin.ext (by
    match a with
    | ⟨0, _⟩ => exact (score_rhs0 _ _).trans hk
    | ⟨1, _⟩ => exact score_rhs1 _ _)
  rw [el, er, transpose_ix2_apply]

/-- Bias broadcast down the rows, then the rectifier against a broadcast zero: `Cert.Gcn.hidden`. -/
theorem rectified_eq (a : FVec Ideal S100000x128 .f32) (b : FVec Ideal S128 .f32) :
    maximumf (F := Ideal) (addf a (broadcastInDim S100000x128 ![0, 1] bcast_S1x128_S100000x128_0_1 (broadcastInDim S1x128 ![1] bcast_S128_S1x128_1 b)))
      (broadcastInDim S100000x128 ![] bcast_S_S100000x128 (constant S_ .f32 0x00000000#32)) = Cert.Gcn.hidden a b := by
  funext i
  obtain ⟨r, q, rfl⟩ : ∃ (r : Fin 100000) (q : Fin 128), i = ix2 r q := ⟨i 0, i 1, eq_ix2 i⟩
  unfold Cert.Gcn.hidden
  rw [maximumf_apply, addf_apply]
  rw [broadcastInDim_apply ![0, 1] bcast_S1x128_S100000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])]
  rw [broadcastInDim_apply ![1] bcast_S128_S1x128_1 _ (ix2 (0 : Fin 1) q) (ix1 q) (fun a => match a with
    | ⟨0, _⟩ => by show q.val = if (128 : Nat) = 1 then 0 else q.val; rw [if_neg (by decide)])]
  rw [broadcastInDim_apply ![] bcast_S_S100000x128 _ (ix2 r q) ix0 (fun a => a.elim0)]
  show max _ (Ideal.ofBits .f32 0x00000000#32) = max _ 0
  rw [Ideal.ofBits_zero_f32]

/-- The host's 1 / (1 + e^(-(h·wlᵀ + bl))) is the logistic of each row's inner product plus the bias: `Cert.Gcn.score`. -/
theorem logistic_eq (h : FVec Ideal S100000x128 .f32) (wl : FVec Ideal S1x128 .f32) (bl : FVec Ideal S1 .f32) :
    Host.divf (F := Ideal) (broadcastInDim S100000x1 ![] bcast_S_S100000x1 (constant S_ .f32 0x3F800000#32))
        (addf (broadcastInDim S100000x1 ![] bcast_S_S100000x1 (constant S_ .f32 0x3F800000#32))
          (Host.exp (Host.negf (addf (Host.dotGeneral dot_S100000x128_S128x1_S100000x1_1_0_0_1_n_n none h (transpose S128x1 [1, 0] wl transposes_S1x128_S128x1_1_0))
            (broadcastInDim S100000x1 ![0, 1] bcast_S1x1_S100000x1_0_1 (broadcastInDim S1x1 ![1] bcast_S1_S1x1_1 bl))))))
      = Cert.Gcn.score h wl bl := by
  funext i
  obtain ⟨r, q, rfl⟩ : ∃ (r : Fin 100000) (q : Fin 1), i = ix2 r q := ⟨i 0, i 1, eq_ix2 i⟩
  obtain rfl : q = 0 := Subsingleton.elim _ _
  unfold Cert.Gcn.score
  show Ideal.div (broadcastInDim S100000x1 ![] bcast_S_S100000x1 (constant (F := Ideal) S_ .f32 0x3F800000#32) (ix2 r (0 : Fin 1)))
      ((broadcastInDim S100000x1 ![] bcast_S_S100000x1 (constant (F := Ideal) S_ .f32 0x3F800000#32) (ix2 r (0 : Fin 1)))
        + Ideal.exp (-(Host.dotGeneral (F := Ideal) dot_S100000x128_S128x1_S100000x1_1_0_0_1_n_n none h (transpose S128x1 [1, 0] wl transposes_S1x128_S128x1_1_0) (ix2 r (0 : Fin 1))
            + broadcastInDim S100000x1 ![0, 1] bcast_S1x1_S100000x1_0_1 (broadcastInDim S1x1 ![1] bcast_S1_S1x1_1 bl) (ix2 r (0 : Fin 1)))))
    = Ideal.logistic _
  rw [rowdot_apply]
  rw [broadcastInDim_apply ![] bcast_S_S100000x1 _ (ix2 r (0 : Fin 1)) ix0 (fun a => a.elim0)]
  rw [broadcastInDim_apply ![0, 1] bcast_S1x1_S100000x1_0_1 _ (ix2 r (0 : Fin 1)) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else 0; rw [if_pos rfl])]
  rw [broadcastInDim_apply ![1] bcast_S1_S1x1_1 _ (ix2 (0 : Fin 1) (0 : Fin 1)) (ix1 (0 : Fin 1)) (fun a => match a with
    | ⟨0, _⟩ => by show 0 = if (1 : Nat) = 1 then 0 else 0; rw [if_pos rfl])]
  show Ideal.div (Ideal.ofBits .f32 0x3F800000#32) (Ideal.ofBits .f32 0x3F800000#32 + Ideal.exp (-_)) = Ideal.logistic _
  rw [Ideal.ofBits_one_f32]
  rfl

variable (m : (ℓ : Loc nD τ sig) → Buf (Elt Ideal) ℓ)

/-- The reference's hidden features are the specification's, of arrays the arguments equal. -/
theorem hidden_of (c : Dev nD) (a0 : FVec Ideal S100000x128 .f32) (a1 : IVec S2x640000 32) (a2 : FVec Ideal S128x128 .f32) (a3 : FVec Ideal S128 .f32)
    (h0 : (m ((c.tc : Thread nD τ).loc main_arg0)) = a0) (h1 : (m ((c.tc : Thread nD τ).loc main_arg1)) = a1) (h2 : (m ((c.tc : Thread nD τ).loc main_arg2)) = a2) (h3 : (m ((c.tc : Thread nD τ).loc main_arg3)) = a3) :
    hiddenTerm m c = Cert.Gcn.hidden (Cert.Gcn.aggregate (F := Ideal) (Cert.Gcn.proj a0 a2) a1) a3 := by
  subst h0 h1 h2 h3
  unfold hiddenTerm projTerm
  rw [rectified_eq, proj_eq]

/-- The reference's second result, the hidden features. -/
theorem hidden_result (c : Dev nD) (a0 : FVec Ideal S100000x128 .f32) (a1 : IVec S2x640000 32) (a2 : FVec Ideal S128x128 .f32) (a3 : FVec Ideal S128 .f32)
    (h0 : (m ((c.tc : Thread nD τ).loc main_arg0)) = a0) (h1 : (m ((c.tc : Thread nD τ).loc main_arg1)) = a1) (h2 : (m ((c.tc : Thread nD τ).loc main_arg2)) = a2) (h3 : (m ((c.tc : Thread nD τ).loc main_arg3)) = a3) :
    RunP.res_main_v48 m c = Cert.Gcn.hidden (Cert.Gcn.aggregate (F := Ideal) (Cert.Gcn.proj a0 a2) a1) a3 :=
  (hidden_term m c).trans (hidden_of m c a0 a1 a2 a3 h0 h1 h2 h3)

/-- The reference's first result, the scores. -/
theorem score_result (c : Dev nD) (a0 : FVec Ideal S100000x128 .f32) (a1 : IVec S2x640000 32) (a2 : FVec Ideal S128x128 .f32) (a3 : FVec Ideal S128 .f32)
    (a4 : FVec Ideal S1x128 .f32) (a5 : FVec Ideal S1 .f32)
    (h0 : (m ((c.tc : Thread nD τ).loc main_arg0)) = a0) (h1 : (m ((c.tc : Thread nD τ).loc main_arg1)) = a1) (h2 : (m ((c.tc : Thread nD τ).loc main_arg2)) = a2) (h3 : (m ((c.tc : Thread nD τ).loc main_arg3)) = a3) (h4 : (m ((c.tc : Thread nD τ).loc main_arg4)) = a4) (h5 : (m ((c.tc : Thread nD τ).loc main_arg5)) = a5) :
    RunP.res_main_v59 m c = Cert.Gcn.score (Cert.Gcn.hidden (Cert.Gcn.aggregate (F := Ideal) (Cert.Gcn.proj a0 a2) a1) a3) a4 a5 := by
  rw [score_term, hidden_of m c a0 a1 a2 a3 h0 h1 h2 h3, h4, h5]
  exact logistic_eq _ _ _

end Reads

end Cert.ReferenceIdeal.Results

end
-- ==== Proof.lean ====
/-
  A graph-convolution layer with a scoring head, as a kernel program against its jnp reference, equal over the
  extended reals.

  Both programs compute, for node features x, an edge list, weights w, a bias b, a weight row wl and a score bias bl,
      h   = max (aggregate (x·wᵀ) edges + b) 0          (nodes × features)
      out = 1 / (1 + e^(-(h·wlᵀ + bl)))                  (nodes × 1)
  where `aggregate` adds, at each destination node, the source node's row scaled by the symmetric degree weights,
  self loops included (Proof/Aggregate.lean). The kernel program computes x·wᵀ in one pipelined region (twenty row
  blocks), runs the aggregation on the host, and computes h and out in a second pipelined region; the reference runs
  everything on the host. Over the extended reals a change of float format is the identity, a matrix unit's product
  into a zero accumulator and a host contraction are the same sum of products, and the logistic is by definition
  1 / (1 + e^(-x)); the aggregation is the same composed host function in both programs. So both runs end with the
  two results at `Cert.Gcn.score` and `Cert.Gcn.hidden` of the same arguments (Proof/Spec.lean), and no law that
  needs finiteness is used: the precondition is never opened.

  The kernel program's frames are the generated ones; its value is read off the same launch with the two result
  arrays named (Proof/KRun.lean, Proof/KValue.lean); the reference's run is Proof/RefRun.lean and its results are read
  in Proof/RefSide.lean. The idealization rewrote nothing, so `preserves` is trivial.
-/
import proofs.«146198_j63032940036157_1_alg».proof.Defs
import proofs.«146198_j63032940036157_1_alg».proof.Proof.Gen.Kernel
import proofs.«146198_j63032940036157_1_alg».proof.Proof.Gen.Kernel.Frame
import proofs.«146198_j63032940036157_1_alg».proof.Proof.Gen.KernelIdeal
import proofs.«146198_j63032940036157_1_alg».proof.Proof.Gen.KernelIdeal.Frame
import proofs.«146198_j63032940036157_1_alg».proof.Proof.Gen.ReferenceIdeal
import proofs.«146198_j63032940036157_1_alg».proof.Proof.Gen.Pre_finite_inputs
import proofs.«146198_j63032940036157_1_alg».proof.Proof.KValue
import proofs.«146198_j63032940036157_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with the results dropped. -/
theorem frame_reference : Cert.frame_ReferenceIdeal := fun m ρ _ =>
  (θ_run Cert.ReferenceIdeal.defs _ _).mono (fun _ h c => (h c).2.2) (Cert.ReferenceIdeal.RunP.run (F := Ideal) m ρ)

/-- Both runs end with the scores and the hidden features of the (agreeing) arguments. -/
theorem algebraic : Cert.algebraic_KernelIdeal_ReferenceIdeal := by
  intro m ρ m' ρ' _ hagree
  refine ⟨fun c => Cert.Gcn.score (Cert.KernelIdeal.Results.hiddenOfArgs m c) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.KernelIdeal.Results.hiddenOfArgs m c, Cert.KernelIdeal.Results.run m ρ, ?_⟩
  refine (θ_run Cert.ReferenceIdeal.defs _ _).mono (fun _ h c => ?_) (Cert.ReferenceIdeal.RunP.run (F := Ideal) m' ρ')
  obtain ⟨e0, e1, e2, e3, e4, e5⟩ := hagree c
  exact ⟨(h c).1.trans (Cert.ReferenceIdeal.Results.score_result m' c _ _ _ _ _ _ e0 e1 e2 e3 e4 e5),
    (h c).2.1.trans (Cert.ReferenceIdeal.Results.hidden_result m' c _ _ _ _ e0 e1 e2 e3), (h c).2.2⟩

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
